-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S2000x128 : Shape := ⟨2, ![2000, 128]⟩
abbrev S1x128 : Shape := ⟨2, ![1, 128]⟩

abbrev nBuf : Space → Nat
  | .hbm => 58
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x128, .f32⟩
  | .hbm, ⟨33, _⟩ => ⟨S_, .f32⟩
  | .hbm, ⟨34, _⟩ => ⟨S50000x128, .f32⟩
  | .hbm, ⟨35, _⟩ => ⟨S800000x1, .i32⟩
  | .hbm, ⟨36, _⟩ => ⟨S50000x128, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x128, .f32⟩
  | .hbm, ⟨50, _⟩ => ⟨S_, .f32⟩
  | .hbm, ⟨51, _⟩ => ⟨S50000x128, .f32⟩
  | .hbm, ⟨52, _⟩ => ⟨S800000x1, .i32⟩
  | .hbm, ⟨53, _⟩ => ⟨S50000x128, .f32⟩
  | .hbm, ⟨54, _⟩ => ⟨S50000x1, .f32⟩
  | .hbm, ⟨55, _⟩ => ⟨S50000x128, .f32⟩
  | .hbm, ⟨56, _⟩ => ⟨S50000x128, .f32⟩
  | .hbm, ⟨57, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S128, .f32⟩
  | .local _ .vmem, ⟨15, _⟩ => ⟨S128x128, .f32⟩
  | .local _ .vmem, ⟨16, _⟩ => ⟨S2000x128, .f32⟩
  | .local _ .vmem, ⟨17, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v24) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 77
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S1x128, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S_, .f32⟩
  | .hbm, ⟨44, _⟩ => ⟨S50000x128, .f32⟩
  | .hbm, ⟨45, _⟩ => ⟨S50000x128, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x128, .f32⟩
  | .hbm, ⟨55, _⟩ => ⟨S_, .f32⟩
  | .hbm, ⟨56, _⟩ => ⟨S50000x128, .f32⟩
  | .hbm, ⟨57, _⟩ => ⟨S800000x1, .i32⟩
  | .hbm, ⟨58, _⟩ => ⟨S50000x128, .f32⟩
  | .hbm, ⟨59, _⟩ => ⟨S_, .f32⟩
  | .hbm, ⟨60, _⟩ => ⟨S800000, .f32⟩
  | .hbm, ⟨61, _⟩ => ⟨S_, .f32⟩
  | .hbm, ⟨62, _⟩ => ⟨S50000, .f32⟩
  | .hbm, ⟨63, _⟩ => ⟨S800000x1, .i32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000x1, .f32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S1x128, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KPayload.lean ====
/-
  What each of the two kernel bodies stores, read at one entry of its 2000 x 128 block, over the extended reals.

  Both bodies load a block of aggregated features `a` and a block of node features `x` (2000 rows of 128), two 128 x 128
  weight matrices and a bias row, and store  (a · Wl + b) + x · Wr ; the first body then takes the maximum with zero.
  A matrix product into a zero accumulator is the plain sum over the contracted axis; the bias row, reshaped to one row
  and repeated over the 2000 rows, reads the bias at the column.
-/
import proofs.«169398_j50457275793790_1_alg».proof.Proof.Gen.KernelIdeal.Skeleton
import Idealize.ShloMosaic.PureOps.Ideal.Laws
import Idealize.ShloMosaic.Lib.ValueIdx
import Idealize.ShloMosaic.Lib.ValueLayout

noncomputable section

namespace Cert.KernelIdeal.Payload

open Cert.KernelIdeal Cert.KernelIdeal.Gen Idealize.ShloMosaic Idealize.ShloMosaic.ValueIdx

/-- The block-level matrix product's dimension record: [2000,128] x [128,128], contracting the 128. -/
abbrev blockDot : DotDims S2000x128 S128x128 S2000x128 := dot_S2000x128_S128x128_S2000x128_1_0_0_1_n_n

theorem lhs_axis0 (i : S2000x128.Idx) (q : blockDot.contr.Idx) : (blockDot.lhsIdx i q 0).val = (i 0).val := by
  unfold DotDims.lhsIdx
  rw [dif_neg (show ¬(0 : Fin S2000x128.rank) ∈ blockDot.lhsBatch by decide), dif_pos (show (0 : Fin S2000x128.rank) ∈ blockDot.lhsNonContracting by decide)]
  rfl
theorem lhs_axis1 (i : S2000x128.Idx) (q : blockDot.contr.Idx) : (blockDot.lhsIdx i q 1).val = (q ⟨0, by decide⟩).val :=
  blockDot.lhsIdx_val_of_single rfl i q
theorem rhs_axis0 (i : S2000x128.Idx) (q : blockDot.contr.Idx) : (blockDot.rhsIdx i q 0).val = (q ⟨0, by decide⟩).val :=
  blockDot.rhsIdx_val_of_single rfl i q
theorem rhs_axis1 (i : S2000x128.Idx) (q : blockDot.contr.Idx) : (blockDot.rhsIdx i q 1).val = (i 1).val := by
  unfold DotDims.rhsIdx
  rw [dif_neg (show ¬(1 : Fin S128x128.rank) ∈ blockDot.rhsBatch by decide), dif_pos (show (1 : Fin S128x128.rank) ∈ blockDot.rhsNonContracting by decide)]
  rfl

/-- A block's product with a weight matrix into a zero accumulator, at row `p` and column `q`: the sum over the
    contracted index `k` of the block's (p, k) times the matrix's (k, q). -/
theorem blockMatmul_apply (a : FVec Ideal S2000x128 .f32) (w : FVec Ideal S128x128 .f32) (p : Fin 2000) (q : Fin 128) :
    matmul blockDot none a w (constant S2000x128 .f32 0x00000000#32) (ix2 p q)
      = ∑ k : Fin 128, a (ix2 p k) * w (ix2 k q) := by
  simp only [matmul]
  rw [Ideal.matmul_constant_zero_apply, ← Equiv.sum_comp (contrEquiv1 blockDot 128 rfl rfl).symm]
  refine Finset.sum_congr rfl fun k _ => ?_
  have hk := contrEquiv1_symm_val blockDot 128 rfl rfl k
  have el : blockDot.lhsIdx (ix2 p q) ((contrEquiv1 blockDot 128 rfl rfl).symm k) = ix2 p k := funext fun ax => Fin.ext (by
    match ax with
    | ⟨0, _⟩ => exact lhs_axis0 _ _
    | ⟨1, _⟩ => exact (lhs_axis1 _ _).trans hk)
  have er : blockDot.rhsIdx (ix2 p q) ((contrEquiv1 blockDot 128 rfl rfl).symm k) = ix2 k q := funext fun ax => Fin.ext (by
    match ax with
    | ⟨0, _⟩ => exact (rhs_axis0 _ _).trans hk
    | ⟨1, _⟩ => exact rhs_axis1 _ _)
  rw [el, er]

/-- The bias row, reshaped to [1,128] and repeated over the rows, reads the bias at the column. -/
theorem biasRows_apply (b : FVec Ideal S128 .f32) (p : Fin 2000) (q : Fin 128) :
    broadcastTo S2000x128 (shapeCast S1x128 b shapeCasts_S128_S1x128) broadcasts_S1x128_S2000x128 (ix2 p q) = b (ix1 q) := by
  rw [broadcastTo_1b_ab_apply, shapeCast_a_1a_apply]

/-- The first body's stored value at (p, q). -/
theorem pay0_apply (a x : Vec Ideal S2000x128 .f32) (wl wr : Vec Ideal S128x128 .f32) (b : Vec Ideal S128 .f32)
    (p : Fin 2000) (q : Fin 128) :
    k0_pay1 (F := Ideal) a x wl wr b (ix2 p q)
      = max (((∑ k : Fin 128, a (ix2 p k) * wl (ix2 k q)) + b (ix1 q)) + ∑ k : Fin 128, x (ix2 p k) * wr (ix2 k q)) 0 := by
  unfold k0_pay1
  rw [shapeCast_self, maximumf_apply, addf_apply, addf_apply, broadcast_apply, blockMatmul_apply, blockMatmul_apply,
    biasRows_apply]
  exact congrArg (max _) Ideal.ofBits_zero_f32

/-- The second body's stored value at (p, q). -/
theorem pay1_apply (a x : Vec Ideal S2000x128 .f32) (wl wr : Vec Ideal S128x128 .f32) (b : Vec Ideal S128 .f32)
    (p : Fin 2000) (q : Fin 128) :
    k1_pay1 (F := Ideal) a x wl wr b (ix2 p q)
      = ((∑ k : Fin 128, a (ix2 p k) * wl (ix2 k q)) + b (ix1 q)) + ∑ k : Fin 128, x (ix2 p k) * wr (ix2 k q) := by
  unfold k1_pay1
  rw [shapeCast_self, shapeCast_self, addf_apply, addf_apply, blockMatmul_apply, blockMatmul_apply, biasRows_apply]

end Cert.KernelIdeal.Payload

end
-- ==== Proof.Layer.lean ====
/-
  One GraphSAGE layer's dense step, over the extended reals, as a function of whole arrays.

  For node features `x` (50000 rows of 128), aggregated neighbour features `agg` (same shape), two 128 x 128 weight
  matrices and a bias row, entry (r, j) of the combined array is

      (sum_k agg(r, k) * Wl(k, j)  +  b(j))  +  sum_k x(r, k) * Wr(k, j),

  the additions grouped exactly so.  The mean over neighbours divides a per-node sum by max(deg, 1): written as a product with
  the reciprocal 1 / max(deg, 1) or as a quotient by max(deg, 1), the two agree on every extended real, because the divisor
  is at least one, hence not zero (`max_one_ne_zero`).
-/
import Idealize.ShloMosaic.PureOps.Ideal
import Idealize.ShloMosaic.PureOps.Ideal.Laws
import Idealize.ShloMosaic.Lib.ValueIdx
import Idealize.ShloMosaic.Lib.IdealHost

noncomputable section

namespace Cert.Sage

open Idealize.ShloMosaic Idealize.ShloMosaic.ValueIdx

/-- Node features: 50000 rows of 128. -/
abbrev Nodes : Shape := ⟨2, ![50000, 128]⟩
/-- A weight matrix: 128 by 128. -/
abbrev Wts : Shape := ⟨2, ![128, 128]⟩
/-- A bias row of 128. -/
abbrev Bias : Shape := ⟨1, ![128]⟩

/-- Entry (row of `i`, `k`) of a node array. -/
abbrev atRow (i : Nodes.Idx) (k : Fin 128) : Nodes.Idx := ix2 (⟨(i 0).val, (i 0).isLt⟩ : Fin 50000) k
/-- Entry (`k`, column of `i`) of a weight matrix. -/
abbrev atCol (i : Nodes.Idx) (k : Fin 128) : Wts.Idx := ix2 k (⟨(i 1).val, (i 1).isLt⟩ : Fin 128)
/-- Entry (column of `i`) of the bias. -/
abbrev atBias (i : Nodes.Idx) : Bias.Idx := ix1 (⟨(i 1).val, (i 1).isLt⟩ : Fin 128)

/-- The dense step of one layer: `(agg · Wl + b) + x · Wr`, entry by entry. -/
def combine (agg x : Nodes.Idx → EReal) (Wl : Wts.Idx → EReal) (b : Bias.Idx → EReal) (Wr : Wts.Idx → EReal) :
    Nodes.Idx → EReal := fun i =>
  ((∑ k : Fin 128, agg (atRow i k) * Wl (atCol i k)) + b (atBias i)) + ∑ k : Fin 128, x (atRow i k) * Wr (atCol i k)

/-- The same followed by the rectifier `max · 0`. -/
def combineRelu (agg x : Nodes.Idx → EReal) (Wl : Wts.Idx → EReal) (b : Bias.Idx → EReal) (Wr : Wts.Idx → EReal) :
    Nodes.Idx → EReal := fun i => max (combine agg x Wl b Wr i) 0

/-- A maximum with one is not zero. -/
theorem max_one_ne_zero (a : EReal) : max a 1 ≠ 0 :=
  (lt_of_lt_of_le zero_lt_one (le_max_right a 1)).ne'

end Cert.Sage

end
-- ==== Proof.KFinal.lean ====
/-
  From blocks to whole arrays: what each of the two kernel regions leaves in its output array, as ONE function of the
  arrays the region finds on entry, over the extended reals.

  A region walks 25 grid points; point t stages rows 2000·t … 2000·t + 1999 of the aggregated features and of the node
  features, the two weight matrices and the bias whole, and writes back the same rows of the output.  What point t writes
  is therefore rows 2000·t … of the layer's dense step (`Sage.combine`, for the first region followed by the rectifier)
  applied to the WHOLE arrays; the 25 row blocks tile the 50000 rows, so the output array ends at that function.
-/
import proofs.«169398_j50457275793790_1_alg».proof.Proof.Gen.KernelIdeal.Frame
import proofs.«169398_j50457275793790_1_alg».proof.Proof.KPayload
import proofs.«169398_j50457275793790_1_alg».proof.Proof.Layer
import Idealize.ShloMosaic.Lib.Pipeline.Value

set_option maxRecDepth 16384

noncomputable section

namespace Cert.KernelIdeal.Final

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

-- the TensorCore's buffer contents when a region is entered
variable (V : (c : Dev nD) → (b : Ref sig .tc) → Buf (Elt Ideal) ((c : Thread nD τ).loc b))

theorem origin2 : (![0, 0] : Fin 2 → Nat) = fun _ => 0 := funext fun a => by fin_cases a <;> rfl
theorem origin1 : (![0] : Fin 1 → Nat) = fun _ => 0 := funext fun a => by fin_cases a <;> rfl

/-! ## The first region -/

/-- The first region's output as a function of the arrays it finds: the dense step, rectified. -/
abbrev layer0 (c : Dev nD) : S50000x128.Idx → EReal :=
  Sage.combineRelu (V c main_v24) (V c main_arg0) (V c main_arg2) (V c main_arg3) (V c main_arg4)

/-- The printed index maps over the grid: the row-block windows sit at block (t, 0), the whole windows at block 0. -/
theorem blockIdx0 : ∀ t : Fin cfg0.N, win0_5.index t (0 : Fin 2) = t.val ∧ win0_5.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0 :=
  (by decide +kernel : ∀ t : Fin grid0.N, _)

/-- Aggregated features' block at point t, entry (p, k): the array's entry in row 2000·t + p. -/
theorem readAgg0 (c : Dev nD) (t : Fin cfg0.N) (p : Fin 2000) (k : Fin 128) (i : S50000x128.Idx)
    (hi : (i 0).val = t.val * 2000 + p.val) : iblk0 V c 0 t (ix2 p k) = V c main_v24 (Sage.atRow i k) := by
  obtain ⟨-, -, e0, e1, -⟩ := blockIdx0 t
  show V c main_v24 (((cfg0.win 0).blk t).view.emb (ix2 p k)) = V c main_v24 (Sage.atRow i k)
  refine congrArg (V c main_v24) (funext fun a => Fin.ext ?_)
  match a with
  | ⟨0, _⟩ => show win0_0.index t (0 : Fin 2) * 2000 + 1 * p.val = (i 0).val; omega
  | ⟨1, _⟩ => show win0_0.index t (1 : Fin 2) * 128 + 1 * k.val = k.val; omega

/-- Node features' block at point t, entry (p, k): the array's entry in row 2000·t + p. -/
theorem readX0 (c : Dev nD) (t : Fin cfg0.N) (p : Fin 2000) (k : Fin 128) (i : S50000x128.Idx)
    (hi : (i 0).val = t.val * 2000 + p.val) : iblk0 V c 1 t (ix2 p k) = V c main_arg0 (Sage.atRow i k) := by
  obtain ⟨-, -, -, -, e0, e1, -⟩ := blockIdx0 t
  show V c main_arg0 (((cfg0.win 1).blk t).view.emb (ix2 p k)) = V c main_arg0 (Sage.atRow i k)
  refine congrArg (V c main_arg0) (funext fun a => Fin.ext ?_)
  match a with
  | ⟨0, _⟩ => show win0_1.index t (0 : Fin 2) * 2000 + 1 * p.val = (i 0).val; omega
  | ⟨1, _⟩ => show win0_1.index t (1 : Fin 2) * 128 + 1 * k.val = k.val; omega

/-- The left weight matrix is staged whole: its block's entry (k, q) is the matrix's. -/
theorem readWl0 (c : Dev nD) (t : Fin cfg0.N) (k q : Fin 128) (i : S50000x128.Idx) (hi : (i 1).val = q.val) :
    iblk0 V c 2 t (ix2 k q) = V c main_arg2 (Sage.atCol i k) := by
  obtain ⟨-, -, -, -, -, -, e0, e1, -⟩ := blockIdx0 t
  show V c main_arg2 (((cfg0.win 2).blk t).view.emb (ix2 k q)) = V c main_arg2 (Sage.atCol i k)
  refine congrArg (V c main_arg2) (funext fun a => Fin.ext ?_)
  match a with
  | ⟨0, _⟩ => show win0_2.index t (0 : Fin 2) * 128 + 1 * k.val = k.val; omega
  | ⟨1, _⟩ => show win0_2.index t (1 : Fin 2) * 128 + 1 * q.val = (i 1).val; omega

/-- The bias is staged whole: its block's entry q is the bias's. -/
theorem readB0 (c : Dev nD) (t : Fin cfg0.N) (q : Fin 128) (i : S50000x128.Idx) (hi : (i 1).val = q.val) :
    iblk0 V c 3 t (ix1 q) = V c main_arg3 (Sage.atBias i) := by
  obtain ⟨-, -, -, -, -, -, -, -, e0, -⟩ := blockIdx0 t
  show V c main_arg3 (((cfg0.win 3).blk t).view.emb (ix1 q)) = V c main_arg3 (Sage.atBias i)
  refine congrArg (V c main_arg3) (funext fun a => Fin.ext ?_)
  match a with
  | ⟨0, _⟩ => show win0_3.index t (0 : Fin 1) * 128 + 1 * q.val = (i 1).val; omega

/-- The right weight matrix is staged whole: its block's entry (k, q) is the matrix's. -/
theorem readWr0 (c : Dev nD) (t : Fin cfg0.N) (k q : Fin 128) (i : S50000x128.Idx) (hi : (i 1).val = q.val) :
    iblk0 V c 4 t (ix2 k q) = V c main_arg4 (Sage.atCol i k) := by
  obtain ⟨-, -, -, -, -, -, -, -, -, e0, e1⟩ := blockIdx0 t
  show V c main_arg4 (((cfg0.win 4).blk t).view.emb (ix2 k q)) = V c main_arg4 (Sage.atCol i k)
  refine congrArg (V c main_arg4) (funext fun a => Fin.ext ?_)
  match a with
  | ⟨0, _⟩ => show win0_4.index t (0 : Fin 2) * 128 + 1 * k.val = k.val; omega
  | ⟨1, _⟩ => show win0_4.index t (1 : Fin 2) * 128 + 1 * q.val = (i 1).val; omega

/-- WHAT POINT t WRITES BACK is rows 2000·t … of the rectified dense step of the whole arrays. -/
theorem flushed0_eq (c : Dev nD) (t : Fin cfg0.N) :
    (dat0 V c).flushed 5 t = ((cfg0.win 5).blk t).view.read (Elt Ideal) (layer0 V c) := by
  show (cfg0.win 5).cut (grid0.coords t) ((dat0 V c).after 5 t) = _
  rw [after0_5]
  unfold out0_5
  rw [View.canon_unit_zero origin2]
  simp only [View.ld_unit_zero (S := S2000x128) origin2, View.ld_unit_zero (S := S128x128) origin2,
    View.ld_unit_zero (S := S128) origin1]
  funext j
  obtain ⟨p, q, rfl⟩ : ∃ (p : Fin 2000) (q : Fin 128), j = ix2 p q := ⟨j 0, j 1, eq_ix2 j⟩
  obtain ⟨e0, e1, -⟩ := blockIdx0 t
  have hrow : ((((cfg0.win 5).blk t).view.emb (ix2 p q)) 0).val = t.val * 2000 + p.val := by
    show win0_5.index t (0 : Fin 2) * 2000 + 1 * p.val = _; omega
  have hcol : ((((cfg0.win 5).blk t).view.emb (ix2 p q)) 1).val = q.val := by
    show win0_5.index t (1 : Fin 2) * 128 + 1 * q.val = _; omega
  refine (Payload.pay0_apply (iblk0 V c 0 t) (iblk0 V c 1 t) (iblk0 V c 2 t) (iblk0 V c 4 t) (iblk0 V c 3 t) p q).trans ?_
  show _ = max (Sage.combine (V c main_v24) (V c main_arg0) (V c main_arg2) (V c main_arg3) (V c main_arg4)
      (((cfg0.win 5).blk t).view.emb (ix2 p q))) 0
  unfold Sage.combine
  simp only [readAgg0 V c t p _ _ hrow, readX0 V c t p _ _ hrow, readWl0 V c t _ q _ hcol, readWr0 V c t _ q _ hcol,
    readB0 V c t q _ hcol]

/-- An index of the output array is in point t's block iff each coordinate is in the block's range on its axis. -/
theorem mem_blk0 (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v25).slice (win0_5.rect t)).set ↔ _
  rw [View.set_slice_whole, Rect.mem_set_unit]
  exact Iff.rfl

/-- Every one of the 25 row blocks is some point's. -/
theorem blockOnto0 : ∀ (b : Fin 25), ∃ t : Fin cfg0.N, win0_5.index t = ![b.val, 0] :=
  (by decide +kernel : ∀ (b : Fin 25), ∃ t : Fin grid0.N, win0_5.index t = ![b.val, 0])

/-- The 25 row blocks tile the output array: row r lies in block r / 2000. -/
theorem cover0 (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ := blockOnto0 ⟨(i 0).val / 2000, by omega⟩
  have q0 : win0_5.index t (0 : Fin 2) = (i 0).val / 2000 := congrFun ht 0
  have q1 : win0_5.index t (1 : Fin 2) = 0 := congrFun ht 1
  refine ⟨t, flush0_5 t, ?_⟩
  rw [mem_blk0]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 128 ≤ (i 1).val ∧ (i 1).val < win0_5.index t (1 : Fin 2) * 128 + 128; omega

/-- THE FIRST REGION'S OUTPUT ARRAY after its 25 points: the rectified dense step of the arrays it found. -/
theorem final0 (c : Dev nD) : (dat0 V c).arrAt 5 cfg0.N = layer0 V c :=
  (dat0 V c).arrAt_eq_of_cover 5 (layer0 V c) (fun t _ => flushed0_eq V c t) (cover0)

/-! ## The second region -/

/-- The second region's output as a function of the arrays it finds: the dense step, not rectified. -/
abbrev layer1 (c : Dev nD) : S50000x128.Idx → EReal :=
  Sage.combine (V c main_v38) (V c main_v25) (V c main_arg5) (V c main_arg6) (V c main_arg7)

/-- The second region's index maps over its grid: row-block windows at block (t, 0), whole windows at block 0. -/
theorem blockIdx1 : ∀ t : Fin cfg1.N, win1_5.index t (0 : Fin 2) = t.val ∧ win1_5.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0 :=
  (by decide +kernel : ∀ t : Fin grid1.N, _)

/-- The aggregated hidden features' block at point t, entry (p, k): the array's entry in row 2000·t + p. -/
theorem readAgg1 (c : Dev nD) (t : Fin cfg1.N) (p : Fin 2000) (k : Fin 128) (i : S50000x128.Idx)
    (hi : (i 0).val = t.val * 2000 + p.val) : iblk1 V c 0 t (ix2 p k) = V c main_v38 (Sage.atRow i k) := by
  obtain ⟨-, -, e0, e1, -⟩ := blockIdx1 t
  show V c main_v38 (((cfg1.win 0).blk t).view.emb (ix2 p k)) = V c main_v38 (Sage.atRow i k)
  refine congrArg (V c main_v38) (funext fun a => Fin.ext ?_)
  match a with
  | ⟨0, _⟩ => show win1_0.index t (0 : Fin 2) * 2000 + 1 * p.val = (i 0).val; omega
  | ⟨1, _⟩ => show win1_0.index t (1 : Fin 2) * 128 + 1 * k.val = k.val; omega

/-- The hidden features' block at point t, entry (p, k): the array's entry in row 2000·t + p. -/
theorem readX1 (c : Dev nD) (t : Fin cfg1.N) (p : Fin 2000) (k : Fin 128) (i : S50000x128.Idx)
    (hi : (i 0).val = t.val * 2000 + p.val) : iblk1 V c 1 t (ix2 p k) = V c main_v25 (Sage.atRow i k) := by
  obtain ⟨-, -, -, -, e0, e1, -⟩ := blockIdx1 t
  show V c main_v25 (((cfg1.win 1).blk t).view.emb (ix2 p k)) = V c main_v25 (Sage.atRow i k)
  refine congrArg (V c main_v25) (funext fun a => Fin.ext ?_)
  match a with
  | ⟨0, _⟩ => show win1_1.index t (0 : Fin 2) * 2000 + 1 * p.val = (i 0).val; omega
  | ⟨1, _⟩ => show win1_1.index t (1 : Fin 2) * 128 + 1 * k.val = k.val; omega

/-- The second layer's left weight matrix is staged whole. -/
theorem readWl1 (c : Dev nD) (t : Fin cfg1.N) (k q : Fin 128) (i : S50000x128.Idx) (hi : (i 1).val = q.val) :
    iblk1 V c 2 t (ix2 k q) = V c main_arg5 (Sage.atCol i k) := by
  obtain ⟨-, -, -, -, -, -, e0, e1, -⟩ := blockIdx1 t
  show V c main_arg5 (((cfg1.win 2).blk t).view.emb (ix2 k q)) = V c main_arg5 (Sage.atCol i k)
  refine congrArg (V c main_arg5) (funext fun a => Fin.ext ?_)
  match a with
  | ⟨0, _⟩ => show win1_2.index t (0 : Fin 2) * 128 + 1 * k.val = k.val; omega
  | ⟨1, _⟩ => show win1_2.index t (1 : Fin 2) * 128 + 1 * q.val = (i 1).val; omega

/-- The second layer's bias is staged whole. -/
theorem readB1 (c : Dev nD) (t : Fin cfg1.N) (q : Fin 128) (i : S50000x128.Idx) (hi : (i 1).val = q.val) :
    iblk1 V c 3 t (ix1 q) = V c main_arg6 (Sage.atBias i) := by
  obtain ⟨-, -, -, -, -, -, -, -, e0, -⟩ := blockIdx1 t
  show V c main_arg6 (((cfg1.win 3).blk t).view.emb (ix1 q)) = V c main_arg6 (Sage.atBias i)
  refine congrArg (V c main_arg6) (funext fun a => Fin.ext ?_)
  match a with
  | ⟨0, _⟩ => show win1_3.index t (0 : Fin 1) * 128 + 1 * q.val = (i 1).val; omega

/-- The second layer's right weight matrix is staged whole. -/
theorem readWr1 (c : Dev nD) (t : Fin cfg1.N) (k q : Fin 128) (i : S50000x128.Idx) (hi : (i 1).val = q.val) :
    iblk1 V c 4 t (ix2 k q) = V c main_arg7 (Sage.atCol i k) := by
  obtain ⟨-, -, -, -, -, -, -, -, -, e0, e1⟩ := blockIdx1 t
  show V c main_arg7 (((cfg1.win 4).blk t).view.emb (ix2 k q)) = V c main_arg7 (Sage.atCol i k)
  refine congrArg (V c main_arg7) (funext fun a => Fin.ext ?_)
  match a with
  | ⟨0, _⟩ => show win1_4.index t (0 : Fin 2) * 128 + 1 * k.val = k.val; omega
  | ⟨1, _⟩ => show win1_4.index t (1 : Fin 2) * 128 + 1 * q.val = (i 1).val; omega

/-- WHAT POINT t OF THE SECOND REGION WRITES BACK is rows 2000·t … of the dense step of the whole arrays. -/
theorem flushed1_eq (c : Dev nD) (t : Fin cfg1.N) :
    (dat1 V c).flushed 5 t = ((cfg1.win 5).blk t).view.read (Elt Ideal) (layer1 V c) := by
  show (cfg1.win 5).cut (grid1.coords t) ((dat1 V c).after 5 t) = _
  rw [after1_5]
  unfold out1_5
  rw [View.canon_unit_zero origin2]
  simp only [View.ld_unit_zero (S := S2000x128) origin2, View.ld_unit_zero (S := S128x128) origin2,
    View.ld_unit_zero (S := S128) origin1]
  funext j
  obtain ⟨p, q, rfl⟩ : ∃ (p : Fin 2000) (q : Fin 128), j = ix2 p q := ⟨j 0, j 1, eq_ix2 j⟩
  obtain ⟨e0, e1, -⟩ := blockIdx1 t
  have hrow : ((((cfg1.win 5).blk t).view.emb (ix2 p q)) 0).val = t.val * 2000 + p.val := by
    show win1_5.index t (0 : Fin 2) * 2000 + 1 * p.val = _; omega
  have hcol : ((((cfg1.win 5).blk t).view.emb (ix2 p q)) 1).val = q.val := by
    show win1_5.index t (1 : Fin 2) * 128 + 1 * q.val = _; omega
  refine (Payload.pay1_apply (iblk1 V c 0 t) (iblk1 V c 1 t) (iblk1 V c 2 t) (iblk1 V c 4 t) (iblk1 V c 3 t) p q).trans ?_
  show _ = Sage.combine (V c main_v38) (V c main_v25) (V c main_arg5) (V c main_arg6) (V c main_arg7)
      (((cfg1.win 5).blk t).view.emb (ix2 p q))
  unfold Sage.combine
  simp only [readAgg1 V c t p _ _ hrow, readX1 V c t p _ _ hrow, readWl1 V c t _ q _ hcol, readWr1 V c t _ q _ hcol,
    readB1 V c t q _ hcol]

/-- An index of the second output array is in point t's block iff each coordinate is in the block's range. -/
theorem mem_blk1 (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v39).slice (win1_5.rect t)).set ↔ _
  rw [View.set_slice_whole, Rect.mem_set_unit]
  exact Iff.rfl

/-- Every one of the second region's 25 row blocks is some point's. -/
theorem blockOnto1 : ∀ (b : Fin 25), ∃ t : Fin cfg1.N, win1_5.index t = ![b.val, 0] :=
  (by decide +kernel : ∀ (b : Fin 25), ∃ t : Fin grid1.N, win1_5.index t = ![b.val, 0])

/-- The second region's 25 row blocks tile its output array. -/
theorem cover1 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ := blockOnto1 ⟨(i 0).val / 2000, by omega⟩
  have q0 : win1_5.index t (0 : Fin 2) = (i 0).val / 2000 := congrFun ht 0
  have q1 : win1_5.index t (1 : Fin 2) = 0 := congrFun ht 1
  refine ⟨t, flush1_5 t, ?_⟩
  rw [mem_blk1]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 128 ≤ (i 1).val ∧ (i 1).val < win1_5.index t (1 : Fin 2) * 128 + 128; omega

/-- THE SECOND REGION'S OUTPUT ARRAY after its 25 points: the dense step of the arrays it found. -/
theorem final1 (c : Dev nD) : (dat1 V c).arrAt 5 cfg1.N = layer1 V c :=
  (dat1 V c).arrAt_eq_of_cover 5 (layer1 V c) (fun t _ => flushed1_eq V c t) (cover1)

end Cert.KernelIdeal.Final

end
-- ==== Proof.KChain.lean ====
/-
  The idealized two-layer program's result, read out of the fold of its segments, as a function of the launch arrays.

  The program is: host operations (split the edge list into sources and targets, count in-degrees, take the reciprocal
  of max(deg, 1), gather the features at the sources, sum them per target, scale by the reciprocal), the first kernel
  region, the same host operations again on the first region's output, the second kernel region.  Each region's output
  array is the layer's dense step of the arrays it finds (the blocks-to-array module); each host stretch's outputs are
  its operations applied to what it finds.  Composing the four segments gives the result as `outK` of the arguments.
-/
import proofs.«169398_j50457275793790_1_alg».proof.Proof.Gen.KernelIdeal.Frame
import proofs.«169398_j50457275793790_1_alg».proof.Proof.KFinal
import Idealize.ShloMosaic.Lib.StableHlo.Run
import Idealize.ShloMosaic.Lib.IdealHost
import Idealize.ShloMosaic.Lib.Pipeline.Value

set_option maxRecDepth 16384

noncomputable section

namespace Cert.KernelIdeal.Chain

open Cert.KernelIdeal Cert.KernelIdeal.Gen Idealize.ShloMosaic Idealize.ShloMosaic.TcCoe Idealize.ShloMosaic.ValueIdx
open Idealize.SL Idealize.SL.Sem Idealize.ShloMosaic.StableHlo

/-- The edge list: row 0 the sources, row 1 the targets. -/
abbrev Edges := (⟨S2x800000, .i32⟩ : BufTy).Contents (Elt Ideal)
/-- A vector of 800000 node numbers. -/
abbrev NodeIds := (⟨S800000, .i32⟩ : BufTy).Contents (Elt Ideal)
/-- Node features. -/
abbrev Feat := FVec Ideal S50000x128 .f32
/-- A weight matrix. -/
abbrev Mat := FVec Ideal S128x128 .f32
/-- A bias row. -/
abbrev Row := FVec Ideal S128 .f32
/-- One float per node. -/
abbrev PerNode := FVec Ideal S50000 .f32

/-- The edges' sources. -/
def srcOf (E : Edges) : NodeIds :=
  shapeCast _ (extractStridedSlice S1x800000 ![0, 0] E slices_S2x800000_S1x800000_0_0) shapeCasts_S1x800000_S800000
/-- The edges' targets. -/
def dstOf (E : Edges) : NodeIds :=
  shapeCast _ (extractStridedSlice S1x800000 ![1, 0] E slices_S2x800000_S1x800000_1_0) shapeCasts_S1x800000_S800000

/-- Per node, the number of edges that target it (a sum of ones). -/
def degOf (dst : NodeIds) : PerNode :=
  Host.scatterAdd (F := Ideal) scatter_S50000_S800000x1_S800000_n_0_0_1
    (broadcastInDim S50000 ![] bcast_S_S50000 (constant (F := Ideal) S_ .f32 0x00000000#32))
    (broadcastInDim S800000x1 ![0] bcast_S800000_S800000x1_0 dst)
    (broadcastInDim S800000 ![] bcast_S_S800000 (constant (F := Ideal) S_ .f32 0x3F800000#32))

/-- Per node, one over max(deg, 1). -/
def recipDeg (dst : NodeIds) : PerNode :=
  Host.divf (F := Ideal) (φ := .f32) (broadcastInDim S50000 ![] bcast_S_S50000 (constant (F := Ideal) S_ .f32 0x3F800000#32))
    (maximumf (F := Ideal) (φ := .f32) (degOf dst) (broadcastInDim S50000 ![] bcast_S_S50000 (constant (F := Ideal) S_ .f32 0x3F800000#32)))

/-- Per node, the sum of the rows of `feat` at the sources (a negative source counted from the end) of its incoming
    edges. -/
def nbrSum (src dst : NodeIds) (feat : Feat) : Feat :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (Host.gather gather_S50000x128_S800000x1_S800000x128_1_0_n_n_0_1_1128 feat
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- The neighbour sums scaled, row by row, by a per-node factor. -/
def scaledSum (src dst : NodeIds) (inv : PerNode) (feat : Feat) : Feat :=
  mulf (F := Ideal) (φ := .f32) (nbrSum src dst feat)
    (broadcastInDim S50000x128 ![0, 1] bcast_S50000x1_S50000x128_0_1 (broadcastInDim S50000x1 ![0] bcast_S50000_S50000x1_0 inv))

/-- The mean over incoming neighbours as the kernel's program writes it: sums times 1 / max(deg, 1). -/
def meanK (E : Edges) (feat : Feat) : Feat := scaledSum (srcOf E) (dstOf E) (recipDeg (dstOf E)) feat

/-- The hidden features as the kernel's program computes them. -/
def hiddenK (E : Edges) (x : Feat) (W1l : Mat) (b1l : Row) (W1r : Mat) : Feat :=
  Sage.combineRelu (meanK E x) x W1l b1l W1r

/-- The result as the kernel's program computes it. -/
def outK (E : Edges) (x : Feat) (W1l : Mat) (b1l : Row) (W1r W2l : Mat) (b2l : Row) (W2r : Mat) : Feat :=
  Sage.combine (meanK E (hiddenK E x W1l b1l W1r)) (hiddenK E x W1l b1l W1r) W2l b2l W2r

/-! ## The neighbour mean read at an entry -/

/-- A per-node factor repeated along each row reads, at entry (r, j), the factor of node r. -/
theorem rowScale_apply (inv : PerNode) (i : S50000x128.Idx) :
    broadcastInDim S50000x128 ![0, 1] bcast_S50000x1_S50000x128_0_1 (broadcastInDim S50000x1 ![0] bcast_S50000_S50000x1_0 inv) i
      = inv (ix1 (⟨(i 0).val, (i 0).isLt⟩ : Fin 50000)) := by
  rw [broadcastInDim_apply _ bcast_S50000x1_S50000x128_0_1 _ i (ix2 (⟨(i 0).val, (i 0).isLt⟩ : Fin 50000) (0 : Fin 1)) (fun a => match a with
      | ⟨0, _⟩ => by show (i 0).val = if (50000 : Nat) = 1 then 0 else (i 0).val; rw [if_neg (by decide)]
      | ⟨1, _⟩ => by show 0 = if (1 : Nat) = 1 then 0 else (i 1).val; rw [if_pos rfl]),
    broadcastInDim_apply _ bcast_S50000_S50000x1_0 inv _ (ix1 (⟨(i 0).val, (i 0).isLt⟩ : Fin 50000)) (fun a => match a with
      | ⟨0, _⟩ => by show (i 0).val = if (50000 : Nat) = 1 then 0 else (i 0).val; rw [if_neg (by decide)])]

/-- The reciprocal degree at a node: one over the maximum of its in-degree and one. -/
theorem recipDeg_apply (dst : NodeIds) (j : S50000.Idx) : recipDeg dst j = Ideal.div 1 (max (degOf dst j) 1) := by
  unfold recipDeg
  rw [hostDivf_apply, maximumf_apply, broadcastInDim_scalar_apply, constant_apply, Ideal.ofBits_one_f32]

/-- The kernel program's neighbour mean at entry (r, j): the neighbour sum there times one over max(deg r, 1). -/
theorem meanK_apply (E : Edges) (feat : Feat) (i : S50000x128.Idx) :
    meanK E feat i = nbrSum (srcOf E) (dstOf E) feat i
      * Ideal.div 1 (max (degOf (dstOf E) (ix1 (⟨(i 0).val, (i 0).isLt⟩ : Fin 50000))) 1) := by
  unfold meanK scaledSum
  rw [mulf_apply, rowScale_apply, recipDeg_apply]

variable (m : (ℓ : Loc nD τ sig) → Buf (Elt Ideal) ℓ) (ρ : Dev nD → PrngReg)

/-! ## After the first host stretch -/

theorem src1 (c : Dev nD) : W1 m ρ c (Proc.devRef .tc main_v1) = srcOf (m ((c : Thread nD τ).loc main_arg1)) := by
  show StableHlo.after hostOps0 (W0 m ρ c) (Proc.devRef .tc main_v1) = _
  after_results_simp
  rfl
theorem dst1 (c : Dev nD) : W1 m ρ c (Proc.devRef .tc main_v3) = dstOf (m ((c : Thread nD τ).loc main_arg1)) := by
  show StableHlo.after hostOps0 (W0 m ρ c) (Proc.devRef .tc main_v3) = _
  after_results_simp
  rfl
theorem inv1 (c : Dev nD) : W1 m ρ c (Proc.devRef .tc main_v11) = recipDeg (dstOf (m ((c : Thread nD τ).loc main_arg1))) := by
  show StableHlo.after hostOps0 (W0 m ρ c) (Proc.devRef .tc main_v11) = _
  after_results_simp
  rfl
theorem agg1 (c : Dev nD) : W1 m ρ c (Proc.devRef .tc main_v24)
    = meanK (m ((c : Thread nD τ).loc main_arg1)) (m ((c : Thread nD τ).loc main_arg0)) := by
  show StableHlo.after hostOps0 (W0 m ρ c) (Proc.devRef .tc main_v24) = _
  after_results_simp
  rfl
theorem x1 (c : Dev nD) : W1 m ρ c (Proc.devRef .tc main_arg0) = m ((c : Thread nD τ).loc main_arg0) := by
  show StableHlo.after hostOps0 (W0 m ρ c) (Proc.devRef .tc main_arg0) = _
  after_results_simp
theorem wl1 (c : Dev nD) : W1 m ρ c (Proc.devRef .tc main_arg2) = m ((c : Thread nD τ).loc main_arg2) := by
  show StableHlo.after hostOps0 (W0 m ρ c) (Proc.devRef .tc main_arg2) = _
  after_results_simp
theorem b1 (c : Dev nD) : W1 m ρ c (Proc.devRef .tc main_arg3) = m ((c : Thread nD τ).loc main_arg3) := by
  show StableHlo.after hostOps0 (W0 m ρ c) (Proc.devRef .tc main_arg3) = _
  after_results_simp
theorem wr1 (c : Dev nD) : W1 m ρ c (Proc.devRef .tc main_arg4) = m ((c : Thread nD τ).loc main_arg4) := by
  show StableHlo.after hostOps0 (W0 m ρ c) (Proc.devRef .tc main_arg4) = _
  after_results_simp

/-! ## After the first region -/

/-- The first region leaves the hidden features in its output array. -/
theorem hidden2 (c : Dev nD) : W2 m ρ c (Proc.devRef .tc main_v25)
    = hiddenK (m ((c : Thread nD τ).loc main_arg1)) (m ((c : Thread nD τ).loc main_arg0)) (m ((c : Thread nD τ).loc main_arg2))
        (m ((c : Thread nD τ).loc main_arg3)) (m ((c : Thread nD τ).loc main_arg4)) :=
  (W2_arr m ρ c 5).trans <| (Final.final0 (V1 m ρ) c).trans <| by
    show Sage.combineRelu (W1 m ρ c (Proc.devRef .tc main_v24)) (W1 m ρ c (Proc.devRef .tc main_arg0))
      (W1 m ρ c (Proc.devRef .tc main_arg2)) (W1 m ρ c (Proc.devRef .tc main_arg3)) (W1 m ρ c (Proc.devRef .tc main_arg4)) = _
    rw [agg1, x1, wl1, b1, wr1]
    rfl

/-- The region writes none of the host stretch's other results: sources, targets and reciprocal degrees stay. -/
theorem src2 (c : Dev nD) : W2 m ρ c (Proc.devRef .tc main_v1) = srcOf (m ((c : Thread nD τ).loc main_arg1)) :=
  (W2_of_ne m ρ c main_v1 (by decide)).trans (src1 m ρ c)
theorem dst2 (c : Dev nD) : W2 m ρ c (Proc.devRef .tc main_v3) = dstOf (m ((c : Thread nD τ).loc main_arg1)) :=
  (W2_of_ne m ρ c main_v3 (by decide)).trans (dst1 m ρ c)
theorem inv2 (c : Dev nD) : W2 m ρ c (Proc.devRef .tc main_v11) = recipDeg (dstOf (m ((c : Thread nD τ).loc main_arg1))) :=
  (W2_of_ne m ρ c main_v11 (by decide)).trans (inv1 m ρ c)

/-! ## After the second host stretch -/

/-- The second stretch repeats the aggregation on the hidden features. -/
theorem agg3 (c : Dev nD) : W3 m ρ c (Proc.devRef .tc main_v38)
    = meanK (m ((c : Thread nD τ).loc main_arg1))
        (hiddenK (m ((c : Thread nD τ).loc main_arg1)) (m ((c : Thread nD τ).loc main_arg0)) (m ((c : Thread nD τ).loc main_arg2))
          (m ((c : Thread nD τ).loc main_arg3)) (m ((c : Thread nD τ).loc main_arg4))) := by
  have h : W3 m ρ c (Proc.devRef .tc main_v38)
      = scaledSum (W2 m ρ c (Proc.devRef .tc main_v1)) (W2 m ρ c (Proc.devRef .tc main_v3)) (W2 m ρ c (Proc.devRef .tc main_v11))
          (W2 m ρ c (Proc.devRef .tc main_v25)) := by
    show StableHlo.after hostOps1 (W2 m ρ c) (Proc.devRef .tc main_v38) = _
    after_results_simp
    rfl
  rw [h, src2, dst2, inv2, hidden2]
  rfl

/-- The second stretch does not write the hidden features. -/
theorem hidden3 (c : Dev nD) : W3 m ρ c (Proc.devRef .tc main_v25)
    = hiddenK (m ((c : Thread nD τ).loc main_arg1)) (m ((c : Thread nD τ).loc main_arg0)) (m ((c : Thread nD τ).loc main_arg2))
        (m ((c : Thread nD τ).loc main_arg3)) (m ((c : Thread nD τ).loc main_arg4)) := by
  have h : W3 m ρ c (Proc.devRef .tc main_v25) = W2 m ρ c (Proc.devRef .tc main_v25) := by
    show StableHlo.after hostOps1 (W2 m ρ c) (Proc.devRef .tc main_v25) = _
    after_results_simp
  rw [h, hidden2]

/-- The second layer's weights and bias reach the second region as launched: the region's input windows hand their
    arrays back unchanged, and the whole fold leaves an argument as launched. -/
theorem wl3 (c : Dev nD) : W3 m ρ c (Proc.devRef .tc main_arg5) = m ((c : Thread nD τ).loc main_arg5) :=
  ((W4_arr m ρ c 2).trans (((dat1 (V3 m ρ) c).arrAt_in 2 rfl _).trans (A_eq1 (V3 m ρ) c 2))).symm.trans (W4_main_arg5 m ρ c)
theorem b3 (c : Dev nD) : W3 m ρ c (Proc.devRef .tc main_arg6) = m ((c : Thread nD τ).loc main_arg6) :=
  ((W4_arr m ρ c 3).trans (((dat1 (V3 m ρ) c).arrAt_in 3 rfl _).trans (A_eq1 (V3 m ρ) c 3))).symm.trans (W4_main_arg6 m ρ c)
theorem wr3 (c : Dev nD) : W3 m ρ c (Proc.devRef .tc main_arg7) = m ((c : Thread nD τ).loc main_arg7) :=
  ((W4_arr m ρ c 4).trans (((dat1 (V3 m ρ) c).arrAt_in 4 rfl _).trans (A_eq1 (V3 m ρ) c 4))).symm.trans (W4_main_arg7 m ρ c)

/-! ## After the second region -/

/-- THE RESULT BUFFER after the run, as a function of the launch arrays. -/
theorem out4 (c : Dev nD) : W4 m ρ c (Proc.devRef .tc main_v39)
    = outK (m ((c : Thread nD τ).loc main_arg1)) (m ((c : Thread nD τ).loc main_arg0)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) :=
  (W4_arr m ρ c 5).trans <| (Final.final1 (V3 m ρ) c).trans <| by
    show Sage.combine (W3 m ρ c (Proc.devRef .tc main_v38)) (W3 m ρ c (Proc.devRef .tc main_v25))
      (W3 m ρ c (Proc.devRef .tc main_arg5)) (W3 m ρ c (Proc.devRef .tc main_arg6)) (W3 m ρ c (Proc.devRef .tc main_arg7)) = _
    rw [agg3, hidden3, wl3, b3, wr3]
    rfl

end Cert.KernelIdeal.Chain

end
-- ==== Proof.RefValue.lean ====
/-
  The reference's result as the layer function of whole arrays, over the extended reals.

  The reference computes, twice, the mean over incoming neighbours (per-node sums of gathered rows, divided by
  max(deg, 1)) followed by the dense step  (agg · Wl + b) + x · Wr , the first time rectified.  Read at an entry, a host
  matrix product is the sum over the contracted axis and a bias broadcast reads the bias at the column, so each stage is
  `Sage.combine` of whole arrays; the neighbour mean is kept as ONE function `meanAgg` of the edge list and the
  features, never opened.
-/
import proofs.«169398_j50457275793790_1_alg».proof.Proof.Gen.ReferenceIdeal.Run
import proofs.«169398_j50457275793790_1_alg».proof.Proof.Gen.ReferenceIdeal.Read
import proofs.«169398_j50457275793790_1_alg».proof.Proof.Layer

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx Idealize.SL.Sem

/-- The edge list: row 0 the sources, row 1 the targets. -/
abbrev Edges := (⟨S2x800000, .i32⟩ : BufTy).Contents (Elt Ideal)
/-- Node features. -/
abbrev Feat := FVec Ideal S50000x128 .f32
/-- A weight matrix. -/
abbrev Mat := FVec Ideal S128x128 .f32
/-- A bias row. -/
abbrev Row := FVec Ideal S128 .f32

/-- Per node, the sum of the rows of `feat` at the sources of its incoming edges. -/
def nbrSum (E : Edges) (feat : Feat) : Feat :=
  Host.scatterAdd (F := Ideal) scatter_S50000x128_S800000x1_S800000x128_1_0_0_1 (val_main_v11 (F := Ideal)) (val_main_v12 (F := Ideal) E)
    (Host.gather gather_S50000x128_S800000x1_S800000x128_1_0_n_n_0_1_1128 feat (val_main_v9 (F := Ideal) E))

/-- Per node, max(in-degree, 1). -/
def degMax (E : Edges) : FVec Ideal S50000 .f32 := val_main_v19 (F := Ideal) E

/-- The mean over incoming neighbours as the reference writes it: the sums divided by max(deg, 1), row by row. -/
def meanAgg (E : Edges) (feat : Feat) : Feat :=
  Host.divf (F := Ideal) (φ := .f32) (nbrSum E feat) (val_main_v21 (F := Ideal) E)

/-- The reference's neighbour mean at entry (r, j): the neighbour sum there divided by max(deg r, 1). -/
theorem meanAgg_apply (E : Edges) (feat : Feat) (i : S50000x128.Idx) :
    meanAgg E feat i = Ideal.div (nbrSum E feat i)
      (max (val_main_v17 (F := Ideal) E (ix1 (⟨(i 0).val, (i 0).isLt⟩ : Fin 50000))) 1) := by
  have hj : idx_main_v20 (idx_main_v21 i) = ix1 (⟨(i 0).val, (i 0).isLt⟩ : Fin 50000) :=
    funext fun a => Fin.ext (by match a with | ⟨0, _⟩ => rfl)
  unfold meanAgg
  rw [hostDivf_apply, val_main_v21_apply, val_main_v20_apply, val_main_v19_apply, val_main_v18_apply,
    val_main_cst_3_apply, hj]
  exact congrArg (fun z => Ideal.div _ (max _ z)) Ideal.ofBits_one_f32

/-- The first layer's aggregate is the neighbour mean of the input features. -/
theorem agg1_eq (x0 : Feat) (x1 : Edges) : val_main_v22 (F := Ideal) x0 x1 = meanAgg x1 x0 := rfl

/-- The second layer gathers with the same wrapped sources, scatters to the same targets into the same zeros and
    divides by the same degrees: its aggregate is the neighbour mean of the hidden features. -/
theorem agg2_eq (x0 : Feat) (x1 : Edges) (x2 : Mat) (x3 : Row) (x4 : Mat) :
    val_main_v48 (F := Ideal) x0 x1 x2 x3 x4 = meanAgg x1 (val_main_v29 (F := Ideal) x0 x1 x2 x3 x4) := by
  have h37 : val_main_v37 (F := Ideal) = val_main_v11 (F := Ideal) := rfl
  have h38 : val_main_v38 (F := Ideal) x1 = val_main_v12 (F := Ideal) x1 := rfl
  have h35 : val_main_v35 (F := Ideal) x1 = val_main_v9 (F := Ideal) x1 := rfl
  have h47 : val_main_v47 (F := Ideal) x1 = val_main_v21 (F := Ideal) x1 := rfl
  unfold val_main_v48 val_main_v39 val_main_v36 meanAgg nbrSum
  rw [h37, h38, h35, h47]

/-! ## Index bookkeeping: the generated operand indices are the layer function's -/

theorem l23 (i : S50000x128.Idx) (k : Fin 128) : lidx_main_v23 i k = Sage.atRow i k :=
  funext fun a => Fin.ext (by match a with | ⟨0, _⟩ => rfl | ⟨1, _⟩ => rfl)
theorem r23 (i : S50000x128.Idx) (k : Fin 128) : ridx_main_v23 i k = Sage.atCol i k :=
  funext fun a => Fin.ext (by match a with | ⟨0, _⟩ => rfl | ⟨1, _⟩ => rfl)
theorem l27 (i : S50000x128.Idx) (k : Fin 128) : lidx_main_v27 i k = Sage.atRow i k :=
  funext fun a => Fin.ext (by match a with | ⟨0, _⟩ => rfl | ⟨1, _⟩ => rfl)
theorem r27 (i : S50000x128.Idx) (k : Fin 128) : ridx_main_v27 i k = Sage.atCol i k :=
  funext fun a => Fin.ext (by match a with | ⟨0, _⟩ => rfl | ⟨1, _⟩ => rfl)
theorem l49 (i : S50000x128.Idx) (k : Fin 128) : lidx_main_v49 i k = Sage.atRow i k :=
  funext fun a => Fin.ext (by match a with | ⟨0, _⟩ => rfl | ⟨1, _⟩ => rfl)
theorem r49 (i : S50000x128.Idx) (k : Fin 128) : ridx_main_v49 i k = Sage.atCol i k :=
  funext fun a => Fin.ext (by match a with | ⟨0, _⟩ => rfl | ⟨1, _⟩ => rfl)
theorem l53 (i : S50000x128.Idx) (k : Fin 128) : lidx_main_v53 i k = Sage.atRow i k :=
  funext fun a => Fin.ext (by match a with | ⟨0, _⟩ => rfl | ⟨1, _⟩ => rfl)
theorem r53 (i : S50000x128.Idx) (k : Fin 128) : ridx_main_v53 i k = Sage.atCol i k :=
  funext fun a => Fin.ext (by match a with | ⟨0, _⟩ => rfl | ⟨1, _⟩ => rfl)
theorem b25 (i : S50000x128.Idx) : idx_main_v24 (idx_main_v25 i) = Sage.atBias i :=
  funext fun a => Fin.ext (by match a with | ⟨0, _⟩ => rfl)
theorem b51 (i : S50000x128.Idx) : idx_main_v50 (idx_main_v51 i) = Sage.atBias i :=
  funext fun a => Fin.ext (by match a with | ⟨0, _⟩ => rfl)

/-! ## The two stages -/

/-- The hidden features: the rectified dense step of the input features and their neighbour mean. -/
theorem hidden_eq (x0 : Feat) (x1 : Edges) (x2 : Mat) (x3 : Row) (x4 : Mat) :
    val_main_v29 (F := Ideal) x0 x1 x2 x3 x4 = Sage.combineRelu (meanAgg x1 x0) x0 x2 x3 x4 := by
  funext i
  rw [val_main_v29_apply, val_main_v28_apply, val_main_v26_apply, val_main_v23_apply, val_main_v27_apply,
    val_main_v25_apply, val_main_v24_apply, val_main_call0_v0_apply, val_main_call0_cst_apply, agg1_eq]
  simp only [l23, r23, l27, r27, b25]
  exact congrArg (max _) Ideal.ofBits_zero_f32

/-- The result: the dense step of the hidden features and THEIR neighbour mean. -/
theorem out_eq (x0 : Feat) (x1 : Edges) (x2 : Mat) (x3 : Row) (x4 x5 : Mat) (x6 : Row) (x7 : Mat) :
    val_main_v54 (F := Ideal) x0 x1 x2 x3 x4 x5 x6 x7
      = Sage.combine (meanAgg x1 (val_main_v29 (F := Ideal) x0 x1 x2 x3 x4)) (val_main_v29 (F := Ideal) x0 x1 x2 x3 x4) x5 x6 x7 := by
  funext i
  rw [val_main_v54_apply, val_main_v52_apply, val_main_v49_apply, val_main_v53_apply, val_main_v51_apply,
    val_main_v50_apply, agg2_eq]
  simp only [l49, r49, l53, r53, b51]
  rfl

end Cert.ReferenceIdeal.RefValue

end
-- ==== Proof.Bridge.lean ====
/-
  The two programs compute one function.

  Both gather the features at the (wrapped) sources and sum them per target with the same host operations on the same
  edge list, and both count the same in-degrees; the kernel's program then multiplies each row by 1 / max(deg, 1) where
  the reference divides it by max(deg, 1).  Since max(deg, 1) ≥ 1 is never zero, the product with the reciprocal is the
  quotient on every extended real, so the two neighbour means agree, hence the hidden features, hence the results.
-/
import proofs.«169398_j50457275793790_1_alg».proof.Proof.KChain
import proofs.«169398_j50457275793790_1_alg».proof.Proof.RefValue

noncomputable section

namespace Cert.Bridge

open Idealize.ShloMosaic Idealize.ShloMosaic.ValueIdx
open Cert.KernelIdeal.Chain (Edges Feat Mat Row meanK hiddenK outK)

/-- The neighbour sums are spelt with the same operations in both programs. -/
theorem nbrSum_eq (E : Edges) (feat : Feat) :
    Cert.KernelIdeal.Chain.nbrSum (Cert.KernelIdeal.Chain.srcOf E) (Cert.KernelIdeal.Chain.dstOf E) feat
      = Cert.ReferenceIdeal.RefValue.nbrSum E feat := rfl

/-- So are the in-degrees. -/
theorem deg_eq (E : Edges) :
    Cert.KernelIdeal.Chain.degOf (Cert.KernelIdeal.Chain.dstOf E) = Cert.ReferenceIdeal.Read.val_main_v17 (F := Ideal) E := rfl

/-- Sum times reciprocal of max(deg, 1) is sum divided by max(deg, 1): the two neighbour means are one function. -/
theorem mean_eq (E : Edges) (feat : Feat) : meanK E feat = Cert.ReferenceIdeal.RefValue.meanAgg E feat := by
  funext i
  rw [Cert.KernelIdeal.Chain.meanK_apply, Cert.ReferenceIdeal.RefValue.meanAgg_apply, nbrSum_eq, deg_eq]
  exact Ideal.mul_one_div (Cert.Sage.max_one_ne_zero _)

/-- The hidden features agree. -/
theorem hidden_eq (E : Edges) (x : Feat) (W1l : Mat) (b1l : Row) (W1r : Mat) :
    hiddenK E x W1l b1l W1r = Cert.ReferenceIdeal.Read.val_main_v29 (F := Ideal) x E W1l b1l W1r := by
  rw [Cert.ReferenceIdeal.RefValue.hidden_eq]
  unfold hiddenK
  rw [mean_eq]

/-- The results agree. -/
theorem out_eq (E : Edges) (x : Feat) (W1l : Mat) (b1l : Row) (W1r W2l : Mat) (b2l : Row) (W2r : Mat) :
    outK E x W1l b1l W1r W2l b2l W2r
      = Cert.ReferenceIdeal.Read.val_main_v54 (F := Ideal) x E W1l b1l W1r W2l b2l W2r := by
  rw [Cert.ReferenceIdeal.RefValue.out_eq]
  unfold outK
  rw [hidden_eq, mean_eq]

end Cert.Bridge

end
-- ==== Proof.lean ====
/-
  A two-layer GraphSAGE network with mean aggregation: the tiled kernel program and its jnp reference compute the same
  function over the extended reals.

  Each layer takes, per node, the mean of its incoming neighbours' features (gather at the sources, sum per target, divide
  by max(in-degree, 1)) and applies  (mean · Wl + b) + x · Wr ; the first layer is followed by max(·, 0).  The kernel
  program runs the dense step in row blocks of 2000 on the matrix unit and writes the mean as a product with the
  reciprocal 1 / max(deg, 1); the reference uses whole matrix products and a quotient.  Over the extended reals a matrix
  product into a zero accumulator is the sum over the contracted axis whatever the tiling, and x · (1 / d) = x / d whenever
  d ≠ 0, which max(deg, 1) ≥ 1 guarantees: no finiteness of the inputs is needed for the equality.

  Modules: `Layer` (the dense step as a function of whole arrays), `KPayload` (a kernel body's stored block at an
  entry), `KFinal` (each region's output array as the dense step of what it finds), `KChain` (the result read through
  the program's four segments), `KRun` (the run with the result buffer named), `RefValue` (the reference's result as
  the same layer function), `Bridge` (the two neighbour means, hence the two results, agree).
-/
import proofs.«169398_j50457275793790_1_alg».proof.Defs
import proofs.«169398_j50457275793790_1_alg».proof.Proof.Gen.Kernel
import proofs.«169398_j50457275793790_1_alg».proof.Proof.Gen.Kernel.Frame
import proofs.«169398_j50457275793790_1_alg».proof.Proof.Gen.KernelIdeal
import proofs.«169398_j50457275793790_1_alg».proof.Proof.Gen.KernelIdeal.Frame
import proofs.«169398_j50457275793790_1_alg».proof.Proof.Gen.ReferenceIdeal
import proofs.«169398_j50457275793790_1_alg».proof.Proof.Gen.ReferenceIdeal.Run
import proofs.«169398_j50457275793790_1_alg».proof.Proof.Gen.ReferenceIdeal.Read
import proofs.«169398_j50457275793790_1_alg».proof.Proof.Gen.Pre_finite_inputs
import proofs.«169398_j50457275793790_1_alg».proof.Proof.KRun
import proofs.«169398_j50457275793790_1_alg».proof.Proof.KChain
import proofs.«169398_j50457275793790_1_alg».proof.Proof.RefValue
import proofs.«169398_j50457275793790_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs, faults nowhere and leaves its arguments unchanged. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- So does the idealized reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories that agree on the arguments both programs end with the result buffer at the two-layer network's value
    of the arguments: the kernel program's by its four segments, the reference's by its run, the two values one function. -/
theorem algebraic : Cert.algebraic_KernelIdeal_ReferenceIdeal := by
  intro m ρ m' ρ' _ hagree
  refine ⟨fun c => Cert.KernelIdeal.Chain.outK
      (m ((c.tc : Thread Cert.KernelIdeal.nD Cert.KernelIdeal.τ).loc Cert.KernelIdeal.main_arg1))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Chain.out4 m ρ c), (h c).2⟩) (Cert.KernelIdeal.Out.run_out m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7⟩ := hagree c
    rw [Cert.ReferenceIdeal.Read.val_main_v54_eq, a0, a1, a2, a3, a4, a5, a6, a7]
    exact (Cert.Bridge.out_eq _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
